-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S_ : Shape := ⟨0, ![]⟩
abbrev S16x64x258x258 : Shape := ⟨4, ![16, 64, 258, 258]⟩
abbrev S1024x258x258 : Shape := ⟨3, ![1024, 258, 258]⟩
abbrev S1024x256x256 : Shape := ⟨3, ![1024, 256, 256]⟩
abbrev S16x258x258 : Shape := ⟨3, ![16, 258, 258]⟩
abbrev S16x256x256 : Shape := ⟨3, ![16, 256, 256]⟩

abbrev nBuf : Space → Nat
  | .hbm => 6
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S_, .f32⟩
  | .hbm, ⟨2, _⟩ => ⟨S16x64x258x258, .f32⟩
  | .hbm, ⟨3, _⟩ => ⟨S1024x258x258, .f32⟩
  | .hbm, ⟨4, _⟩ => ⟨S1024x256x256, .f32⟩
  | .hbm, ⟨5, _⟩ => ⟨S16x64x256x256, .f32⟩
  | .local _ .vmem, ⟨0, _⟩ => ⟨S16x258x258, .f32⟩
  | .local _ .vmem, ⟨1, _⟩ => ⟨S16x258x258, .f32⟩
  | .local _ .vmem, ⟨2, _⟩ => ⟨S16x256x256, .f32⟩
  | .local _ .vmem, ⟨3, _⟩ => ⟨S16x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x258x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S16x64x256x256_S16x64x258x258_000_000_110_110 : S16x64x256x256.Pads (![0, 0, 1, 1] : Fin 4 → Nat) ![0, 0, 1, 1] ![0, 0, 0, 0] S16x64x258x258
  h_S_ : 0 < S_.numel
  shapeCasts_S16x64x258x258_S1024x258x258 : S16x64x258x258.ShapeCasts S1024x258x258
  inb_S16x258x258_S16x258x258_0_0_0 : ∀ a, (![0, 0, 0] : Fin 3 → Nat) a + S16x258x258.size a ≤ S16x258x258.size a
  h_S16x258x258 : 0 < S16x258x258.numel
  shapeCasts_S16x258x258_S16x258x258 : S16x258x258.ShapeCasts S16x258x258
  slices_S16x258x258_o0_0_0_S16x256x256 : S16x258x258.Slices ![0, 0, 0] S16x256x256
  slices_S16x258x258_o0_0_1_S16x256x256 : S16x258x258.Slices ![0, 0, 1] S16x256x256
  slices_S16x258x258_o0_0_2_S16x256x256 : S16x258x258.Slices ![0, 0, 2] S16x256x256
  slices_S16x258x258_o0_1_0_S16x256x256 : S16x258x258.Slices ![0, 1, 0] S16x256x256
  slices_S16x258x258_o0_1_2_S16x256x256 : S16x258x258.Slices ![0, 1, 2] S16x256x256
  slices_S16x258x258_o0_2_0_S16x256x256 : S16x258x258.Slices ![0, 2, 0] S16x256x256
  slices_S16x258x258_o0_2_1_S16x256x256 : S16x258x258.Slices ![0, 2, 1] S16x256x256
  slices_S16x258x258_o0_2_2_S16x256x256 : S16x258x258.Slices ![0, 2, 2] S16x256x256
  inb_S16x256x256_S16x256x256_0_0_0 : ∀ a, (![0, 0, 0] : Fin 3 → Nat) a + S16x256x256.size a ≤ S16x256x256.size a
  h_S16x256x256 : 0 < S16x256x256.numel
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x258x258.size a ≤ S1024x258x258.size a
  hwx0_0 : ∀ i : grid0.Coords, EltTy.bits .f32 = 32 ∨ (Rect.block (s := S1024x258x258) S16x258x258.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S1024x256x256.size a
  hwx0_1 : ∀ i : grid0.Coords, EltTy.bits .f32 = 32 ∨ (Rect.block (s := S1024x256x256) S16x256x256.size (cc0_transform_1 i) (hinb0_1 i)).WholeWords (EltTy.packing .f32)

variable [Facts₀]

abbrev win0_0 : Pipeline.Window sig grid0 :=
  Pipeline.Window.ofSpec (Memref.whole main_v1) S16x258x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S_ : Shape := ⟨0, ![]⟩
abbrev S16x64x258x258 : Shape := ⟨4, ![16, 64, 258, 258]⟩

abbrev nBuf : Space → Nat
  | .hbm => 21
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S_, .f32⟩
  | .hbm, ⟨2, _⟩ => ⟨S16x64x258x258, .f32⟩
  | .hbm, ⟨3, _⟩ => ⟨S_, .f32⟩
  | .hbm, ⟨4, _⟩ => ⟨S16x64x256x256, .f32⟩
  | .hbm, ⟨5, _⟩ => ⟨S16x64x256x256, .f32⟩
  | .hbm, ⟨6, _⟩ => ⟨S16x64x256x256, .f32⟩
  | .hbm, ⟨7, _⟩ => ⟨S16x64x256x256, .f32⟩
  | .hbm, ⟨8, _⟩ => ⟨S16x64x256x256, .f32⟩
  | .hbm, ⟨9, _⟩ => ⟨S16x64x256x256, .f32⟩
  | .hbm, ⟨10, _⟩ => ⟨S16x64x256x256, .f32⟩
  | .hbm, ⟨11, _⟩ => ⟨S16x64x256x256, .f32⟩
  | .hbm, ⟨12, _⟩ => ⟨S16x64x256x256, .f32⟩
  | .hbm, ⟨13, _⟩ => ⟨S16x64x256x256, .f32⟩
  | .hbm, ⟨14, _⟩ => ⟨S16x64x256x256, .f32⟩
  | .hbm, ⟨15, _⟩ => ⟨S16x64x256x256, .f32⟩
  | .hbm, ⟨16, _⟩ => ⟨S16x64x256x256, .f32⟩
  | .hbm, ⟨17, _⟩ => ⟨S16x64x256x256, .f32⟩
  | .hbm, ⟨18, _⟩ => ⟨S16x64x256x256, .f32⟩
  | .hbm, ⟨19, _⟩ => ⟨S16x64x256x256, .f32⟩
  | .hbm, ⟨20, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]

class Facts₀ : Prop where
  pads_S16x64x256x256_S16x64x258x258_000_000_110_110 : S16x64x256x256.Pads (![0, 0, 1, 1] : Fin 4 → Nat) ![0, 0, 1, 1] ![0, 0, 0, 0] S16x64x258x258
  h_S_ : 0 < S_.numel
  bcast_S_S16x64x256x256 : S_.BroadcastsInDim S16x64x256x256 (![] : Fin 0 → Fin S16x64x256x256.rank)
  slices_S16x64x258x258_S16x64x256x256_0_0_0_0 : S16x64x258x258.Slices ![0, 0, 0, 0] S16x64x256x256
  slices_S16x64x258x258_S16x64x256x256_0_0_0_1 : S16x64x258x258.Slices ![0, 0, 0, 1] S16x64x256x256
  slices_S16x64x258x258_S16x64x256x256_0_0_0_2 : S16x64x258x258.Slices ![0, 0, 0, 2] S16x64x256x256
  slices_S16x64x258x258_S16x64x256x256_0_0_1_0 : S16x64x258x258.Slices ![0, 0, 1, 0] S16x64x256x256
  slices_S16x64x258x258_S16x64x256x256_0_0_1_2 : S16x64x258x258.Slices ![0, 0, 1, 2] S16x64x256x256
  slices_S16x64x258x258_S16x64x256x256_0_0_2_0 : S16x64x258x258.Slices ![0, 0, 2, 0] S16x64x256x256
  slices_S16x64x258x258_S16x64x256x256_0_0_2_1 : S16x64x258x258.Slices ![0, 0, 2, 1] S16x64x256x256
  slices_S16x64x258x258_S16x64x256x256_0_0_2_2 : S16x64x258x258.Slices ![0, 0, 2, 2] S16x64x256x256

variable [Facts₀]

class Facts : Prop extends Facts₀ where

variable [Facts]
-- ==== Proof.LibMergeLeading.lean ====
/-
  Row-major reshapes that merge or split the two leading axes, read at an index given by its coordinates.

  An `[a, b, c, d]` array and an `[M, c, d]` array with `M = a·b` hold the same elements in the same row-major order:
  element `(n, k, p, q)` of the first is element `(n·b + k, p, q)` of the second, because both sit at row-major position
  `((n·b + k)·c + p)·d + q`. The two lemmas read a shape cast in either direction at such a pair of indices; the row
  `r` of the merged axis is any index whose value is `n·b + k`.
-/
import Idealize.ShloMosaic.Lib.Pipeline.Value
import Idealize.ShloMosaic.Lib.ValueIdx

noncomputable section

namespace Idealize.ShloMosaic.MergeLeading

open Idealize.ShloMosaic Idealize.ShloMosaic.ValueIdx

variable {α : Type}

/-- An `[a, b, c, d]` array cast to `[M, c, d]` reads, at `(r, p, q)` with `r = n·b + k`, the operand at `(n, k, p, q)`. -/
theorem shapeCast_merge_apply {a b c d M : ℕ} (x : (⟨4, ![a, b, c, d]⟩ : Shape).Idx → α)
    (h : (⟨4, ![a, b, c, d]⟩ : Shape).ShapeCasts ⟨3, ![M, c, d]⟩) (n : Fin a) (k : Fin b) (p : Fin c) (q : Fin d)
    (r : Fin M) (hr : r.val = n.val * b + k.val) :
    shapeCast ⟨3, ![M, c, d]⟩ x h (ix3 r p q) = x (ix4 n k p q) :=
  shapeCast_apply x h _ _ (by
    rw [Shape.rowMajor_val_four, Shape.rowMajor_val_three]
    show ((n.val * b + k.val) * c + p.val) * d + q.val = (r.val * c + p.val) * d + q.val
    rw [hr])

/-- An `[M, c, d]` array cast to `[a, b, c, d]` reads, at `(n, k, p, q)`, the operand at `(r, p, q)` with `r = n·b + k`. -/
theorem shapeCast_split_apply {a b c d M : ℕ} (y : (⟨3, ![M, c, d]⟩ : Shape).Idx → α)
    (h : (⟨3, ![M, c, d]⟩ : Shape).ShapeCasts ⟨4, ![a, b, c, d]⟩) (n : Fin a) (k : Fin b) (p : Fin c) (q : Fin d)
    (r : Fin M) (hr : r.val = n.val * b + k.val) :
    shapeCast ⟨4, ![a, b, c, d]⟩ y h (ix4 n k p q) = y (ix3 r p q) :=
  shapeCast_apply y h _ _ (by
    rw [Shape.rowMajor_val_three, Shape.rowMajor_val_four]
    show (r.val * c + p.val) * d + q.val = ((n.val * b + k.val) * c + p.val) * d + q.val
    rw [hr])

end Idealize.ShloMosaic.MergeLeading

end
-- ==== Proof.MinTaps.lean ====
/-
  The specification: a 3×3 minimum filter, centre tap left out, over an array whose two trailing axes were padded by
  one row and one column on each side.

  For a padded array `P` with trailing extents 258 × 258 the filtered array has trailing extents 256 × 256, and its
  element at rows `(p, q)` is the minimum of the eight elements `P(…, p + di, q + dj)`, `(di, dj)` ranging over
  `{0, 1, 2}²` without `(1, 1)`. The eight are folded in row-major order of the offsets, which is the order in which both
  programs take them. The filter never mixes leading coordinates, so filtering a `[16, 64, 258, 258]` array is the same
  as merging its two leading axes into one of extent 1024, filtering the `[1024, 258, 258]` array and splitting the
  leading axis again (`minTaps_merge`); and it commutes with restriction to a band of leading rows (`minTaps3_block`).
-/
import Idealize.ShloMosaic.PureOps.Ideal
import Idealize.ShloMosaic.Lib.ValueIdx
import Idealize.ShloMosaic.Lib.Pipeline.Value
import proofs.«146892_j48756468744801_1_alg».proof.Proof.LibMergeLeading

noncomputable section

namespace Cert.MinPool

open Idealize.ShloMosaic Idealize.ShloMosaic.ValueIdx Idealize.ShloMosaic.MergeLeading

/-- The minimum of the eight off-centre taps, folded in row-major order of the offsets. -/
def pool8 (f : Fin 3 → Fin 3 → EReal) : EReal :=
  min (min (min (min (min (min (min (f 0 0) (f 0 1)) (f 0 2)) (f 1 0)) (f 1 2)) (f 2 0)) (f 2 1)) (f 2 2)

/-- Row (or column) `p` of the filtered array, moved by the tap offset `d`, as a row of the padded array. -/
def shift (d : Fin 3) (p : Fin 256) : Fin 258 := ⟨d.val + p.val, by have := d.isLt; have := p.isLt; omega⟩

@[simp] theorem shift_val (d : Fin 3) (p : Fin 256) : (shift d p).val = d.val + p.val := rfl

/-- A padded array of `B` leading rows, and its filtered array. -/
abbrev Padded (B : ℕ) : Shape := ⟨3, ![B, 258, 258]⟩
abbrev Pooled (B : ℕ) : Shape := ⟨3, ![B, 256, 256]⟩
/-- The same with the leading axis split as 16 × 64. -/
abbrev Padded4 : Shape := ⟨4, ![16, 64, 258, 258]⟩
abbrev Pooled4 : Shape := ⟨4, ![16, 64, 256, 256]⟩

/-- Where tap `(di, dj)` of the filtered element `(b, p, q)` reads the padded array. -/
abbrev tap3 {B : ℕ} (di dj : Fin 3) (b : Fin B) (p q : Fin 256) : (Padded B).Idx := ix3 b (shift di p) (shift dj q)
abbrev tap4 (di dj : Fin 3) (n : Fin 16) (k : Fin 64) (p q : Fin 256) : Padded4.Idx := ix4 n k (shift di p) (shift dj q)

/-- The filter on a `[B, 258, 258]` array. -/
def minTaps3 {B : ℕ} (A : (Padded B).Idx → EReal) : (Pooled B).Idx → EReal :=
  fun j => pool8 fun di dj => A (tap3 di dj (j 0) (j 1) (j 2))

/-- The filter on a `[16, 64, 258, 258]` array. -/
def minTaps4 (P : Padded4.Idx → EReal) : Pooled4.Idx → EReal :=
  fun i => pool8 fun di dj => P (tap4 di dj (i 0) (i 1) (i 2) (i 3))

theorem minTaps3_apply {B : ℕ} (A : (Padded B).Idx → EReal) (b : Fin B) (p q : Fin 256) :
    minTaps3 A (ix3 b p q) = pool8 fun di dj => A (tap3 di dj b p q) := rfl

theorem minTaps4_apply (P : Padded4.Idx → EReal) (n : Fin 16) (k : Fin 64) (p q : Fin 256) :
    minTaps4 P (ix4 n k p q) = pool8 fun di dj => P (tap4 di dj n k p q) := rfl

/-- Merging the leading axes, filtering, and splitting them again is filtering: row `n·64 + k` of the merged array is
    row `(n, k)` of the original at every tap, the trailing coordinates being untouched by the reshapes. -/
theorem minTaps_merge (P : Padded4.Idx → EReal) (h : Padded4.ShapeCasts (Padded 1024)) (h' : (Pooled 1024).ShapeCasts Pooled4) :
    shapeCast Pooled4 (minTaps3 (shapeCast (Padded 1024) P h)) h' = minTaps4 P := by
  funext i
  obtain ⟨n, k, p, q, rfl⟩ : ∃ (n : Fin 16) (k : Fin 64) (p q : Fin 256), i = ix4 n k p q := ⟨i 0, i 1, i 2, i 3, eq_ix4 i⟩
  have hr : n.val * 64 + k.val < 1024 := by have := n.isLt; have := k.isLt; omega
  rw [shapeCast_split_apply _ h' n k p q ⟨n.val * 64 + k.val, hr⟩ rfl, minTaps3_apply, minTaps4_apply]
  congr 1
  funext di dj
  exact shapeCast_merge_apply P h n k (shift di p) (shift dj q) ⟨n.val * 64 + k.val, hr⟩ rfl

/-- The filter commutes with restriction to a band of leading rows: if `x` is `A` read through `e₀`, and `e₀` carries
    each tap of a filtered index `j` to the same tap of `e₁ j`, then the filtered `x` is the filtered `A` read through `e₁`. -/
theorem minTaps3_block {B B' : ℕ} (A : (Padded B).Idx → EReal) (x : (Padded B').Idx → EReal)
    (e₀ : (Padded B').Idx → (Padded B).Idx) (e₁ : (Pooled B').Idx → (Pooled B).Idx) (hx : ∀ y, x y = A (e₀ y))
    (he : ∀ (di dj : Fin 3) (j : (Pooled B').Idx), e₀ (tap3 di dj (j 0) (j 1) (j 2)) = tap3 di dj (e₁ j 0) (e₁ j 1) (e₁ j 2))
    (j : (Pooled B').Idx) : minTaps3 x j = minTaps3 A (e₁ j) := by
  unfold minTaps3
  congr 1
  funext di dj
  rw [hx, he]
  rfl

/-- Plus infinity is the neutral element of the minimum on the extended reals. -/
theorem min_posInf (a : EReal) : min (Ideal.ofBits .f32 0x7F800000#32) a = a := by
  have htop : Ideal.ofBits .f32 0x7F800000#32 = ⊤ := by simp [Ideal.ofBits, Ideal.ieee]
  rw [htop]
  exact min_top_left a

end Cert.MinPool

end
-- ==== Proof.KernelValue.lean ====
/-
  What the kernel program leaves in its result: the filter of the padded argument.

  The host pads the argument with plus infinity and merges its two leading axes, giving a `[1024, 258, 258]` array. The
  kernel runs on 64 bands of 16 leading rows: at band `t` it loads the whole `[16, 258, 258]` band, takes the eight
  shifted `[16, 256, 256]` slices and folds them with the elementwise minimum — the eight-tap filter of the band — and
  writes the `[16, 256, 256]` result as band `t` of the output. Since the filter acts on the two trailing axes only, the
  filtered band is the band of the filtered array, the 64 bands tile the `[1024, 256, 256]` output, and the output is
  the filter of the merged padded array. The host then splits the leading axis back into 16 × 64; merging, filtering
  and splitting is filtering the `[16, 64, 258, 258]` padded array (`MinPool.minTaps_merge`).
-/
import proofs.«146892_j48756468744801_1_alg».proof.Proof.Gen.KernelIdeal.Frame
import proofs.«146892_j48756468744801_1_alg».proof.Proof.MinTaps
import Idealize.ShloMosaic.Lib.Pipeline.Value
import Idealize.ShloMosaic.Lib.StableHlo.Run

set_option maxRecDepth 16384

noncomputable section

namespace Cert.KernelIdeal.KerValue

open Idealize.ShloMosaic Idealize.ShloMosaic.TcCoe Idealize.ShloMosaic.ValueIdx Idealize.SL.Sem Idealize.ShloMosaic.StableHlo
open Cert.KernelIdeal Cert.KernelIdeal.Gen Cert.MinPool
open Idealize.ShloMosaic.Pipeline (Dat)

variable (m : (ℓ : Loc nD τ sig) → Buf (Elt Ideal) ℓ) (ρ : Dev nD → PrngReg)

/-! ## The body: the eight-tap filter of the loaded band -/

/-- A shifted slice of a padded band, at `(b, p, q)`, reads the band at tap `(di, dj)` of `(b, p, q)`. -/
theorem slice_tap {B : ℕ} (x : (Padded B).Idx → EReal) (di dj : Fin 3) (off : Fin 3 → ℕ) (hoff : off = ![0, di.val, dj.val])
    (h : (Padded B).Slices off (Pooled B)) (b : Fin B) (p q : Fin 256) :
    extractStridedSlice (Pooled B) off x h (ix3 b p q) = x (tap3 di dj b p q) := by
  subst hoff
  exact extractStridedSlice_apply _ x h _ _ fun a => match a with
    | ⟨0, _⟩ => by show b.val = 0 + b.val; omega
    | ⟨1, _⟩ => by show di.val + p.val = di.val + p.val; rfl
    | ⟨2, _⟩ => by show dj.val + q.val = dj.val + q.val; rfl

/-- The stored value is the filter of the loaded band. -/
theorem pay_eq (x0 : Vec Ideal S16x258x258 .f32) : k0_pay1 (F := Ideal) x0 = minTaps3 (B := 16) x0 := by
  funext j
  obtain ⟨b, p, q, rfl⟩ : ∃ (b : Fin 16) (p q : Fin 256), j = ix3 b p q := ⟨j 0, j 1, j 2, eq_ix3 j⟩
  rw [minTaps3_apply]
  unfold k0_pay1 pool8
  dsimp only
  simp only [minimumf_apply, shapeCast_self]
  rw [slice_tap x0 0 0 ![0, 0, 0] rfl _ b p q, slice_tap x0 0 1 ![0, 0, 1] rfl _ b p q, slice_tap x0 0 2 ![0, 0, 2] rfl _ b p q,
    slice_tap x0 1 0 ![0, 1, 0] rfl _ b p q, slice_tap x0 1 2 ![0, 1, 2] rfl _ b p q, slice_tap x0 2 0 ![0, 2, 0] rfl _ b p q,
    slice_tap x0 2 1 ![0, 2, 1] rfl _ b p q, slice_tap x0 2 2 ![0, 2, 2] rfl _ b p q]

/-! ## From bands to the array -/

theorem zero_offsets : (![0, 0, 0] : Fin 3 → Nat) = fun _ => 0 := funext fun a => by fin_cases a <;> rfl

/-- The printed index maps, decided over the 64 bands: input and output move together along the leading axis, band `t`
    is the `t`-th, and neither moves along the trailing axes. -/
theorem band_index : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every band of the output is some point's. -/
theorem band_onto : ∀ q0 : Fin 64, ∃ t : Fin cfg0.N, win0_1.index t = ![q0.val, 0, 0] :=
  (by decide +kernel : ∀ q0 : Fin 64, ∃ t : Fin grid0.N, win0_1.index t = ![q0.val, 0, 0])

/-- What point `t` writes back is band `t` of the filtered input array. -/
theorem flushed_eq (c : Dev nD) (t : Fin cfg0.N) :
    (dats m 0 c).flushed 1 t = ((cfg0.win 1).blk t).view.read (Elt Ideal) (minTaps3 (B := 1024) (V m c main_v1)) := by
  show (cfg0.win 1).cut (grid0.coords t) ((dats m 0 c).after 1 t) = _
  rw [after0_1]
  unfold out0_1
  rw [View.canon_unit_zero zero_offsets]
  simp only [View.ld_unit_zero (S := S16x258x258) zero_offsets]
  rw [pay_eq]
  obtain ⟨e0, e1, e2, e3, e4⟩ := band_index t
  funext j
  show minTaps3 (B := 16) (iblk m c 0 t) j = minTaps3 (B := 1024) (V m c main_v1) (((cfg0.win 1).blk t).view.emb j)
  refine minTaps3_block (V m c main_v1) (iblk m c 0 t) (((cfg0.win 0).blk t).view.emb) (((cfg0.win 1).blk t).view.emb)
    (fun y => rfl) ?_ j
  intro di dj j
  funext a; apply Fin.ext
  match a with
  | ⟨0, _⟩ =>
    show win0_0.index t (0 : Fin 3) * 16 + 1 * (j 0).val = win0_1.index t (0 : Fin 3) * 16 + 1 * (j 0).val
    rw [e0]
  | ⟨1, _⟩ =>
    show win0_0.index t (1 : Fin 3) * 258 + 1 * (di.val + (j 1).val) = di.val + (win0_1.index t (1 : Fin 3) * 256 + 1 * (j 1).val)
    rw [e1, e3]; omega
  | ⟨2, _⟩ =>
    show win0_0.index t (2 : Fin 3) * 258 + 1 * (dj.val + (j 2).val) = dj.val + (win0_1.index t (2 : Fin 3) * 256 + 1 * (j 2).val)
    rw [e2, e4]; omega

/-- An index of the output array is in band `t` iff each coordinate is in the band's range on its axis. -/
theorem mem_band (t : Fin cfg0.N) (i : S1024x256x256.Idx) :
    i ∈ ((cfg0.win 1).blk t).view.set ↔ ∀ a : Fin 3, win0_1.index t a * S16x256x256.size a ≤ (i a).val
      ∧ (i a).val < win0_1.index t a * S16x256x256.size a + S16x256x256.size a := by
  show i ∈ ((View.whole main_v2).slice (win0_1.rect t)).set ↔ _
  rw [View.set_slice_whole, Rect.mem_set_unit]
  exact Iff.rfl

/-- The 64 bands cover the output: leading row `r` lies in band `r / 16`. -/
theorem bands_cover (i : S1024x256x256.Idx) :
    ∃ t : Fin cfg0.N, (cfg0.win 1).flush t = true ∧ i ∈ ((cfg0.win 1).blk t).view.set := by
  have hi0 : (i 0).val < 1024 := (i 0).isLt
  have hi1 : (i 1).val < 256 := (i 1).isLt
  have hi2 : (i 2).val < 256 := (i 2).isLt
  obtain ⟨t, ht⟩ := band_onto ⟨(i 0).val / 16, by omega⟩
  have q0 : win0_1.index t (0 : Fin 3) = (i 0).val / 16 := congrFun ht 0
  have q1 : win0_1.index t (1 : Fin 3) = 0 := congrFun ht 1
  have q2 : win0_1.index t (2 : Fin 3) = 0 := congrFun ht 2
  refine ⟨t, flush0_1 t, ?_⟩
  rw [mem_band]
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 256 ≤ (i 1).val ∧ (i 1).val < win0_1.index t (1 : Fin 3) * 256 + 256; omega
  | ⟨2, _⟩ => show win0_1.index t (2 : Fin 3) * 256 ≤ (i 2).val ∧ (i 2).val < win0_1.index t (2 : Fin 3) * 256 + 256; omega

/-- The output array after the region is the filter of the input array as the region found it. -/
theorem output_eq (c : Dev nD) : (dats m 0 c).arrAt 1 cfg0.N = minTaps3 (B := 1024) (V m c main_v1) :=
  (dats m 0 c).arrAt_eq_of_cover 1 _ (fun t _ => flushed_eq m c t) bands_cover

/-! ## The host lines around the region -/

/-- The argument padded with plus infinity by one row and one column on each side. -/
abbrev padded (c : Dev nD) : S16x64x258x258.Idx → EReal :=
  pad S16x64x258x258 ![0, 0, 1, 1] ![0, 0, 1, 1] ![0, 0, 0, 0] (m ((c : Thread nD τ).loc main_arg0)) (constant (F := Ideal) S_ .f32 0x7F800000#32)
    Facts₀.pads_S16x64x256x256_S16x64x258x258_000_000_110_110 Facts₀.h_S_

/-- The region finds its input array at the padded argument with the leading axes merged. -/
theorem input_eq (c : Dev nD) : (V m c main_v1 : S1024x258x258.Idx → EReal)
    = shapeCast S1024x258x258 (padded m c) Facts₀.shapeCasts_S16x64x258x258_S1024x258x258 := by
  dsimp only [V, V0]
  simp only [hostOps0, hostOps0_1, hostOps0_2, List.flatten_cons, List.flatten_nil, List.append_nil, List.cons_append, List.nil_append]
  after_results
  rfl

/-- The line after the region splits the leading axis of the output array. -/
theorem result_of_output (c : Dev nD) :
    (Pipeline.afterTail₀ cfgs (dats m) 0 (V0 m) [hostOps1] c main_v3 : S16x64x256x256.Idx → EReal)
      = shapeCast S16x64x256x256 ((dats m 0 c).arrAt 1 cfg0.N) Facts₀.shapeCasts_S1024x256x256_S16x64x256x256 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 1 cfg0.N := Pipeline.withArrays_arr spec0 launch0.win.arr_inj c _ _ 1
  rw [e]
  rfl

/-- The program's result is the filter of the padded argument. -/
theorem result_eq (c : Dev nD) :
    (Pipeline.afterTail₀ cfgs (dats m) 0 (V0 m) [hostOps1] c main_v3 : S16x64x256x256.Idx → EReal) = minTaps4 (padded m c) := by
  rw [result_of_output, output_eq, input_eq]
  exact minTaps_merge _ _ _

/-! ## The run -/

/-- Every weakly fair execution of the kernel program terminates with the result at the filter of the padded argument
    and the argument unchanged. -/
theorem run : θ_run defs (onTc (τ := τ) (main (F := Ideal))) ⟨m, fun _ => 0, ρ⟩ fun r => ∀ c : Dev nD,
      r.2.mem ((c : Thread nD τ).loc main_v3) = minTaps4 (padded m c)
      ∧ r.2.mem ((c : Thread nD τ).loc main_arg0) = m ((c : Thread nD τ).loc main_arg0) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c)⟩)
    (run_main m ρ)

end Cert.KernelIdeal.KerValue

end
-- ==== Proof.ReferenceValue.lean ====
/-
  The reference computes the filter of the padded argument.

  The reference pads the argument with plus infinity, starts from an array of plus infinities and takes, eight times, the
  elementwise minimum with a shifted `[16, 64, 256, 256]` slice of the padded array, the slices in row-major order of
  their offsets. At an index `i` each slice reads the padded array at tap `(di, dj)` of `i`, and the leading minimum with
  plus infinity drops out, plus infinity being the top of the extended reals: what is left is the eight-tap fold of the
  specification. The padded array itself is never opened.
-/
import proofs.«146892_j48756468744801_1_alg».proof.Proof.Gen.ReferenceIdeal.Read
import proofs.«146892_j48756468744801_1_alg».proof.Proof.MinTaps

noncomputable section

namespace Cert.ReferenceIdeal.RefValue

open Idealize.ShloMosaic Idealize.ShloMosaic.ValueIdx
open Cert.ReferenceIdeal Cert.ReferenceIdeal.Read Cert.MinPool

/-- An index of the padded array is tap `(di, dj)` of `i` once its leading coordinates are `i`'s and its trailing ones are
    `i`'s moved by the offsets. -/
theorem tap_ext (k : S16x64x258x258.Idx) (i : S16x64x256x256.Idx) (di dj : Fin 3)
    (h0 : (k 0).val = (i 0).val) (h1 : (k 1).val = (i 1).val)
    (h2 : (k 2).val = di.val + (i 2).val) (h3 : (k 3).val = dj.val + (i 3).val) :
    k = tap4 di dj (i 0) (i 1) (i 2) (i 3) := by
  funext a
  match a with
  | ⟨0, _⟩ => exact Fin.ext h0
  | ⟨1, _⟩ => exact Fin.ext h1
  | ⟨2, _⟩ => exact Fin.ext h2
  | ⟨3, _⟩ => exact Fin.ext h3

/-- The reference's result is the filter of its padded argument, index by index. -/
theorem reference_eq (x0 : (⟨S16x64x256x256, .f32⟩ : BufTy).Contents (Elt Ideal)) :
    val_main_v17 (F := Ideal) x0 = minTaps4 (val_main_v0 (F := Ideal) x0) := by
  funext i
  rw [val_main_v17_apply, val_main_v15_apply, val_main_v13_apply, val_main_v11_apply, val_main_v9_apply, val_main_v7_apply,
    val_main_v5_apply, val_main_v3_apply, val_main_v1_apply, val_main_cst_0_apply, val_main_v2_apply, val_main_v4_apply,
    val_main_v6_apply, val_main_v8_apply, val_main_v10_apply, val_main_v12_apply, val_main_v14_apply, val_main_v16_apply]
  simp only [Ideal.minimumf_def, Ideal.ofBits_def, min_posInf]
  rw [tap_ext (idx_main_v2 i) i 0 0 rfl rfl (Nat.zero_add _).symm (Nat.zero_add _).symm,
    tap_ext (idx_main_v4 i) i 0 1 rfl rfl (Nat.zero_add _).symm rfl,
    tap_ext (idx_main_v6 i) i 0 2 rfl rfl (Nat.zero_add _).symm rfl,
    tap_ext (idx_main_v8 i) i 1 0 rfl rfl rfl (Nat.zero_add _).symm,
    tap_ext (idx_main_v10 i) i 1 2 rfl rfl rfl rfl,
    tap_ext (idx_main_v12 i) i 2 0 rfl rfl rfl (Nat.zero_add _).symm,
    tap_ext (idx_main_v14 i) i 2 1 rfl rfl rfl rfl,
    tap_ext (idx_main_v16 i) i 2 2 rfl rfl rfl rfl]
  rfl

end Cert.ReferenceIdeal.RefValue

end
-- ==== Proof.lean ====
/- The proof of `Cert.Claim`: a 3×3 minimum filter with the centre tap left out, stride 1, over `[16, 64, 256, 256]`
   with one row and one column of plus infinity added on each side, as a kernel on 64 bands of the merged leading axis
   against a chain of eight shifted slices on the host.

   Both programs pad the argument with the same plus infinity and fold the same eight shifted slices of the padded
   array, in the same order, with the elementwise minimum. They differ in two ways. The reference starts its fold
   from an array of plus infinities; plus infinity is the top of the extended reals, so that first minimum is the
   identity (`MinPool.min_posInf`). The kernel merges the two leading axes, filters the `[1024, 258, 258]` array band
   by band and splits the leading axis again; the filter touches only the two trailing axes, so this is the filter of
   the `[16, 64, 258, 258]` array (`MinPool.minTaps_merge`, `MinPool.minTaps3_block`). No law of the extended reals
   beyond `min ⊤ a = a` is used, and the precondition is never opened: the two results agree for every extended-real
   argument.

   Proof/MinTaps.lean states the filter; Proof/KernelValue.lean reads the kernel program's run (body, bands, the host
   lines around the region); Proof/ReferenceValue.lean reads the reference's run; Proof/LibMergeLeading.lean holds the
   two reshape lemmas. The frames of the two kernel programs are the generated ones, the reference's frame is its
   generated run with the result dropped, and the idealization rewrote nothing, so `preserves` is `True`. -/
import proofs.«146892_j48756468744801_1_alg».proof.Defs
import proofs.«146892_j48756468744801_1_alg».proof.Proof.Gen.Kernel
import proofs.«146892_j48756468744801_1_alg».proof.Proof.Gen.Kernel.Skeleton
import proofs.«146892_j48756468744801_1_alg».proof.Proof.Gen.Kernel.Launch
import proofs.«146892_j48756468744801_1_alg».proof.Proof.Gen.Kernel.Points
import proofs.«146892_j48756468744801_1_alg».proof.Proof.Gen.Kernel.Frame
import proofs.«146892_j48756468744801_1_alg».proof.Proof.Gen.KernelIdeal
import proofs.«146892_j48756468744801_1_alg».proof.Proof.Gen.KernelIdeal.Skeleton
import proofs.«146892_j48756468744801_1_alg».proof.Proof.Gen.KernelIdeal.Launch
import proofs.«146892_j48756468744801_1_alg».proof.Proof.Gen.KernelIdeal.Points
import proofs.«146892_j48756468744801_1_alg».proof.Proof.Gen.KernelIdeal.Frame
import proofs.«146892_j48756468744801_1_alg».proof.Proof.Gen.ReferenceIdeal
import proofs.«146892_j48756468744801_1_alg».proof.Proof.Gen.Pre_finite_inputs
import proofs.«146892_j48756468744801_1_alg».proof.Proof.Gen.ReferenceIdeal.Run
import proofs.«146892_j48756468744801_1_alg».proof.Proof.Gen.ReferenceIdeal.Read
import proofs.«146892_j48756468744801_1_alg».proof.Proof.KernelValue
import proofs.«146892_j48756468744801_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the argument both programs end at the filter of the padded argument. -/
theorem algebraic : Cert.algebraic_KernelIdeal_ReferenceIdeal := by
  intro m ρ m' ρ' _ hagree
  refine ⟨fun c => Cert.MinPool.minTaps4 (Cert.KernelIdeal.KerValue.padded m c), Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.reference_eq, hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
